-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel

variable [Facts]

def fn {F : FTy → Type} [FloatOps F] (main_arg0 : FVec F S128x2048x7x7 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  main_v3
-- ==== Kernel.lean ====
abbrev S128x2048x7x7 : Shape := ⟨4, ![128, 2048, 7, 7]⟩
abbrev S7x7x128x2048 : Shape := ⟨4, ![7, 7, 128, 2048]⟩
abbrev S2048x128 : Shape := ⟨2, ![2048, 128]⟩
abbrev S128x2048x1x1 : Shape := ⟨4, ![128, 2048, 1, 1]⟩
abbrev S7x7x16x2048 : Shape := ⟨4, ![7, 7, 16, 2048]⟩
abbrev S256x128 : Shape := ⟨2, ![256, 128]⟩
abbrev S16x2048 : Shape := ⟨2, ![16, 2048]⟩

abbrev nBuf : Space → Nat
  | .hbm => 4
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S7x7x128x2048, .f32⟩
  | .hbm, ⟨2, _⟩ => ⟨S2048x128, .f32⟩
  | .hbm, ⟨3, _⟩ => ⟨S128x2048x1x1, .f32⟩
  | .local _ .vmem, ⟨0, _⟩ => ⟨S7x7x16x2048, .f32⟩
  | .local _ .vmem, ⟨1, _⟩ => ⟨S7x7x16x2048, .f32⟩
  | .local _ .vmem, ⟨2, _⟩ => ⟨S256x128, .f32⟩
  | .local _ .vmem, ⟨3, _⟩ => ⟨S256x128, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x2048x7x7_S7x7x128x2048_2_3_0_1 : S128x2048x7x7.Transposes [2, 3, 0, 1] S7x7x128x2048
  shapeCasts_S2048x128_S128x2048x1x1 : S2048x128.ShapeCasts S128x2048x1x1
  inb_S7x7x16x2048_S7x7x16x2048_0_0_0_0 : ∀ a, (![0, 0, 0, 0] : Fin 4 → Nat) a + S7x7x16x2048.size a ≤ S7x7x16x2048.size a
  h_S7x7x16x2048 : 0 < S7x7x16x2048.numel
  shapeCasts_S7x7x16x2048_S7x7x16x2048 : S7x7x16x2048.ShapeCasts S7x7x16x2048
  reduces_S7x7x16x2048_S16x2048 : S7x7x16x2048.Reduces [0, 1] S16x2048
  shapeCasts_S16x2048_S256x128 : S16x2048.ShapeCasts S256x128
  inb_S256x128_S256x128_0_0 : ∀ a, (![0, 0] : Fin 2 → Nat) a + S256x128.size a ≤ S256x128.size a
  h_S256x128 : 0 < S256x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x16x2048.size a ≤ S7x7x128x2048.size a
  hwx0_0 : ∀ i : grid0.Coords, EltTy.bits .f32 = 32 ∨ (Rect.block (s := S7x7x128x2048) S7x7x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S2048x128.size a
  hwx0_1 : ∀ i : grid0.Coords, EltTy.bits .f32 = 32 ∨ (Rect.block (s := S2048x128) S256x128.size (cc0_transform_1 i) (hinb0_1 i)).WholeWords (EltTy.packing .f32)

variable [Facts₀]

abbrev win0_0 : Pipeline.Window sig grid0 :=
  Pipeline.Window.ofSpec (Memref.whole main_call0_v0) S7x7x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S262144x49 : Shape := ⟨2, ![262144, 49]⟩
abbrev S262144x1 : Shape := ⟨2, ![262144, 1]⟩
abbrev S128x2048x1x1 : Shape := ⟨4, ![128, 2048, 1, 1]⟩
abbrev S12288x49 : Shape := ⟨2, ![12288, 49]⟩
abbrev S12288x1 : Shape := ⟨2, ![12288, 1]⟩
abbrev S12288 : Shape := ⟨1, ![12288]⟩

abbrev nBuf : Space → Nat
  | .hbm => 4
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S262144x49, .f32⟩
  | .hbm, ⟨2, _⟩ => ⟨S262144x1, .f32⟩
  | .hbm, ⟨3, _⟩ => ⟨S128x2048x1x1, .f32⟩
  | .local _ .vmem, ⟨0, _⟩ => ⟨S12288x49, .f32⟩
  | .local _ .vmem, ⟨1, _⟩ => ⟨S12288x49, .f32⟩
  | .local _ .vmem, ⟨2, _⟩ => ⟨S12288x1, .f32⟩
  | .local _ .vmem, ⟨3, _⟩ => ⟨S12288x1, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12288x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x2048x7x7_S262144x49 : S128x2048x7x7.ShapeCasts S262144x49
  shapeCasts_S262144x1_S128x2048x1x1 : S262144x1.ShapeCasts S128x2048x1x1
  inb_S12288x49_S12288x49_0_0 : ∀ a, (![0, 0] : Fin 2 → Nat) a + S12288x49.size a ≤ S12288x49.size a
  h_S12288x49 : 0 < S12288x49.numel
  shapeCasts_S12288x49_S12288x49 : S12288x49.ShapeCasts S12288x49
  reduces_S12288x49_S12288 : S12288x49.Reduces [1] S12288
  shapeCasts_S12288_S12288x1 : S12288.ShapeCasts S12288x1
  inb_S12288x1_S12288x1_0_0 : ∀ a, (![0, 0] : Fin 2 → Nat) a + S12288x1.size a ≤ S12288x1.size a
  h_S12288x1 : 0 < S12288x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12288x49.size a < S262144x49.size a
  hwx0_0 : ∀ i : grid0.Coords, EltTy.bits .f32 = 32 ∨ (Rect.unit (s := S262144x49) (fun a => cc0_transform_0 i a * S12288x49.size a) (fun a => (Pipeline.Clip.of (cc0_transform_0 i a) (S12288x49.size a) (S262144x49.size a)).extent (S12288x49.size a)) fun a => Pipeline.Clip.inb (Pipeline.Clip.ok_of (hstart0_0 i a))).WholeWords (EltTy.packing .f32)
  hwxs0_0 : ∀ i : grid0.Coords, EltTy.bits .f32 = 32 ∨ (Rect.unit (s := S12288x49) (fun _ => 0) (fun a => (Pipeline.Clip.of (cc0_transform_0 i a) (S12288x49.size a) (S262144x49.size a)).extent (S12288x49.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12288x1.size a < S262144x1.size a
  hwx0_1 : ∀ i : grid0.Coords, EltTy.bits .f32 = 32 ∨ (Rect.unit (s := S262144x1) (fun a => cc0_transform_1 i a * S12288x1.size a) (fun a => (Pipeline.Clip.of (cc0_transform_1 i a) (S12288x1.size a) (S262144x1.size a)).extent (S12288x1.size a)) fun a => Pipeline.Clip.inb (Pipeline.Clip.ok_of (hstart0_1 i a))).WholeWords (EltTy.packing .f32)
  hwxs0_1 : ∀ i : grid0.Coords, EltTy.bits .f32 = 32 ∨ (Rect.unit (s := S12288x1) (fun _ => 0) (fun a => (Pipeline.Clip.of (cc0_transform_1 i a) (S12288x1.size a) (S262144x1.size a)).extent (S12288x1.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_call0_v0) S12288x49.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S12288x1.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.Spec.lean ====
/-
  Global average pooling over the 7 × 7 spatial positions of an array x : [128, 2048, 7, 7], as both programs compute it
  over the extended reals: out (n, c) = (Σ_h Σ_w x (n, c, h, w)) · s, with s the binary32 number nearest to 1/49 (the same
  word on both sides, never evaluated).  Also the one re-indexing of finite sums the two sides need: a sum over 49
  positions k is the double sum over (h, w) with k = 7 h + w.
-/
import Idealize.ShloMosaic.PureOps.Ideal
import Idealize.ShloMosaic.Lib.ValueIdx

noncomputable section

open Idealize.ShloMosaic Idealize.ShloMosaic.ValueIdx

namespace Cert.Spec

/-- The factor both programs multiply the sum by. -/
def scale : EReal := Ideal.ofBits .f32 0x3CA72F05#32

/-- The pooled value of channel `c` of image `n`: the sum of its 49 entries, scaled. -/
def poolAt (x : (⟨4, ![128, 2048, 7, 7]⟩ : Shape).Idx → EReal) (n : Fin 128) (c : Fin 2048) : EReal :=
  (∑ h : Fin 7, ∑ w : Fin 7, x (ix4 n c h w)) * scale

/-- The pooled array [128, 2048, 1, 1]. -/
def pool (x : (⟨4, ![128, 2048, 7, 7]⟩ : Shape).Idx → EReal) : (⟨4, ![128, 2048, 1, 1]⟩ : Shape).Idx → EReal :=
  fun i => poolAt x (i 0) (i 1)

/-- A sum over the 49 positions of a row-major 7 × 7 grid is the double sum over its rows and columns. -/
theorem sum_fin49 {M : Type*} [AddCommMonoid M] (f : Fin 49 → M) :
    ∑ k : Fin 49, f k = ∑ h : Fin 7, ∑ w : Fin 7, f ⟨7 * h.val + w.val, by have := h.isLt; have := w.isLt; omega⟩ := by
  calc ∑ k : Fin 49, f k = ∑ p : Fin 7 × Fin 7, f (finProdFinEquiv p) :=
        (Equiv.sum_comp (finProdFinEquiv (m := 7) (n := 7)) f).symm
    _ = ∑ h : Fin 7, ∑ w : Fin 7, f (finProdFinEquiv (h, w)) := Fintype.sum_prod_type _
    _ = _ := Finset.sum_congr rfl fun h _ => Finset.sum_congr rfl fun w _ => congrArg f (Fin.ext (by
        show w.val + 7 * h.val = 7 * h.val + w.val
        omega))

end Cert.Spec

end
-- ==== Proof.KernelValue.lean ====
/-
  What the pooling kernel leaves in its result array, over the extended reals.

  The host transposes the argument x : [128, 2048, 7, 7] to [7, 7, 128, 2048]; the kernel walks 8 blocks of 16 images, and
  in each sums the 7 × 7 leading positions of every (image, channel) pair, scales the sum, and lays the [16, 2048] result
  out row-major as [256, 128]; the blocks stack to [2048, 128], which the host reshapes to [128, 2048, 1, 1].  Row-major
  bookkeeping throughout: block row r, lane l and (image nl, channel ch) name the same entry when
  r · 128 + l = nl · 2048 + ch, and array row 256 t + r, lane l is entry (16 t + nl) · 2048 + ch of the flat result.
-/
import proofs.«131960_g2000505477142475_pallasbulk_808_10_alg».proof.Proof.Gen.KernelIdeal.Frame
import proofs.«131960_g2000505477142475_pallasbulk_808_10_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ## The body's result at an index -/

/-- Dropping the two spatial axes of an index of the block keeps its image and channel coordinates. -/
theorem drop_ix4 (hr : S7x7x16x2048.Reduces [0, 1] S16x2048) (h w : Fin 7) (nl : Fin 16) (ch : Fin 2048) :
    hr.drop (ix4 h w nl ch) = ix2 nl ch := by
  funext b
  apply Fin.ext
  match b with
  | ⟨0, _⟩ => exact hr.drop_apply_val_of_eq (ix4 h w nl ch) ⟨0, by decide⟩ ⟨2, by decide⟩
  | ⟨1, _⟩ => exact hr.drop_apply_val_of_eq (ix4 h w nl ch) ⟨1, by decide⟩ ⟨3, by decide⟩

/-- An index of the block that drops to (nl, ch) is (h, w, nl, ch) for its own two spatial coordinates. -/
theorem eq_ix4_of_drop (hr : S7x7x16x2048.Reduces [0, 1] S16x2048) (a : S7x7x16x2048.Idx) (nl : Fin 16) (ch : Fin 2048)
    (ha : hr.drop a = ix2 nl ch) : a = ix4 (a 0 : Fin 7) (a 1 : Fin 7) nl ch := by
  have h2 : ((a 2 : Fin 16) : Nat) = nl.val :=
    (hr.drop_apply_val_of_eq a ⟨0, by decide⟩ ⟨2, by decide⟩).symm.trans (congrArg Fin.val (congrFun ha ⟨0, by decide⟩))
  have h3 : ((a 3 : Fin 2048) : Nat) = ch.val :=
    (hr.drop_apply_val_of_eq a ⟨1, by decide⟩ ⟨3, by decide⟩).symm.trans (congrArg Fin.val (congrFun ha ⟨1, by decide⟩))
  funext e
  match e with
  | ⟨0, _⟩ => rfl
  | ⟨1, _⟩ => rfl
  | ⟨2, _⟩ => exact Fin.ext h2
  | ⟨3, _⟩ => exact Fin.ext h3

/-- The sum over the indices of the block that drop to (nl, ch) is the double sum over the 7 × 7 positions. -/
theorem sum_fiber (hr : S7x7x16x2048.Reduces [0, 1] S16x2048) (f : S7x7x16x2048.Idx → EReal) (nl : Fin 16) (ch : Fin 2048) :
    ∑ i ∈ Finset.univ.filter (fun i => hr.drop i = ix2 nl ch), f i = ∑ h : Fin 7, ∑ w : Fin 7, f (ix4 h w nl ch) := by
  rw [← Fintype.sum_prod_type' (fun (h : Fin 7) (w : Fin 7) => f (ix4 h w nl ch))]
  refine Finset.sum_bij' (fun a _ => ((a 0 : Fin 7), (a 1 : Fin 7))) (fun p _ => ix4 p.1 p.2 nl ch) ?_ ?_ ?_ ?_ ?_
  · intro a _; exact Finset.mem_univ _
  · intro p _; exact Finset.mem_filter.mpr ⟨Finset.mem_univ _, drop_ix4 hr p.1 p.2 nl ch⟩
  · intro a ha; exact (eq_ix4_of_drop hr a nl ch (Finset.mem_filter.mp ha).2).symm
  · intro p _; rfl
  · intro a ha; exact congrArg f (eq_ix4_of_drop hr a nl ch (Finset.mem_filter.mp ha).2)

/-- The body's result at row r, lane l of its [256, 128] block: the 49 entries of image nl, channel ch of the input block
    summed and scaled, where (r, l) and (nl, ch) are the same row-major position. -/
theorem pay_apply (x0 : Vec Ideal S7x7x16x2048 .f32) (nl : Fin 16) (ch : Fin 2048) (r : Fin 256) (l : Fin 128)
    (hpos : r.val * 128 + l.val = nl.val * 2048 + ch.val) :
    k0_pay1 (F := Ideal) x0 (ix2 r l) = (∑ h : Fin 7, ∑ w : Fin 7, x0 (ix4 h w nl ch)) * Cert.Spec.scale := by
  unfold k0_pay1
  refine (shapeCast_apply _ _ (ix2 r l) (ix2 nl ch) ?_).trans ?_
  · rw [Shape.rowMajor_val_two, Shape.rowMajor_val_two]
    show nl.val * 2048 + ch.val = r.val * 128 + l.val
    omega
  · rw [mulf_apply, broadcast_apply, shapeCast_self]
    refine congrArg₂ (· * ·) ?_ rfl
    exact sum_fiber _ x0 nl ch

/-! ## The arrays the region reads and the input block at a point -/

variable (m : (ℓ : Loc nD τ sig) → Buf (Elt Ideal) ℓ) (ρ : Dev nD → PrngReg)

/-- The array the region reads is the argument with its axes permuted: entry (h, w, n, ch) is the argument's (n, ch, h, w). -/
theorem V_transposed (c : Dev nD) :
    (V m c main_call0_v0 : S7x7x128x2048.Idx → EReal)
      = transpose S7x7x128x2048 [2, 3, 0, 1] (m ((c : Thread nD τ).loc main_arg0) : S128x2048x7x7.Idx → EReal)
          Facts₀.transposes_S128x2048x7x7_S7x7x128x2048_2_3_0_1 := by
  show StableHlo.after hostOps0 (fun b => m (c, b)) (Proc.devRef .tc main_call0_v0) = _
  after_results
  rfl

/-- The transposed array at (h, w, n, ch). -/
theorem V_transposed_apply (c : Dev nD) (j : S7x7x128x2048.Idx) (h w : Fin 7) (n : Fin 128) (ch : Fin 2048)
    (j0 : (j 0 : Nat) = h.val) (j1 : (j 1 : Nat) = w.val) (j2 : (j 2 : Nat) = n.val) (j3 : (j 3 : Nat) = ch.val) :
    (V m c main_call0_v0 : S7x7x128x2048.Idx → EReal) j
      = (m ((c : Thread nD τ).loc main_arg0) : S128x2048x7x7.Idx → EReal) (ix4 n ch h w) := by
  rw [V_transposed]
  refine transpose_apply _ _ _ j (ix4 n ch h w) fun b => ?_
  match b with
  | ⟨0, _⟩ => exact j0.symm
  | ⟨1, _⟩ => exact j1.symm
  | ⟨2, _⟩ => exact j2.symm
  | ⟨3, _⟩ => exact j3.symm

/-- The printed index maps over the grid: the input window moves along the image axis only, one block of 16 images a point;
    the output window along the rows only, one block of 256 rows a point. -/
theorem idx_facts : ∀ t : Fin cfg0.N, win0_0.index t (0 : Fin 4) = 0 ∧ win0_0.index t (1 : Fin 4) = 0
    ∧ win0_0.index t (2 : Fin 4) = t.val ∧ win0_0.index t (3 : Fin 4) = 0
    ∧ win0_1.index t (0 : Fin 2) = t.val ∧ win0_1.index t (1 : Fin 2) = 0 :=
  (by decide +kernel : ∀ t : Fin grid0.N, _)

/-- The input block at point t, entry (h, w, nl, ch), is the argument's entry (16 t + nl, ch, h, w). -/
theorem iblk_apply (c : Dev nD) (t : Fin cfg0.N) (h w : Fin 7) (nl : Fin 16) (ch : Fin 2048) (n : Fin 128)
    (hn : n.val = 16 * t.val + nl.val) :
    (iblk m c 0 t : Vec Ideal S7x7x16x2048 .f32) (ix4 h w nl ch)
      = (m ((c : Thread nD τ).loc main_arg0) : S128x2048x7x7.Idx → EReal) (ix4 n ch h w) := by
  obtain ⟨e0, e1, e2, e3, -, -⟩ := idx_facts t
  unfold iblk
  rw [View.read_apply]
  refine V_transposed_apply m c _ h w n ch ?_ ?_ ?_ ?_
  · show win0_0.index t (0 : Fin 4) * 7 + 1 * h.val = h.val
    rw [e0]; omega
  · show win0_0.index t (1 : Fin 4) * 7 + 1 * w.val = w.val
    rw [e1]; omega
  · show win0_0.index t (2 : Fin 4) * 16 + 1 * nl.val = n.val
    rw [e2]; omega
  · show win0_0.index t (3 : Fin 4) * 2048 + 1 * ch.val = ch.val
    rw [e3]; omega

/-! ## What a point writes back, and the result array after the last point -/

/-- The zero offsets of a whole [256, 128] block, as a constant function. -/
theorem hz2 : (![0, 0] : Fin 2 → Nat) = fun _ => 0 := funext fun a => by fin_cases a <;> rfl
/-- The zero offsets of a whole [7, 7, 16, 2048] block, as a constant function. -/
theorem hz4 : (![0, 0, 0, 0] : Fin 4 → Nat) = fun _ => 0 := funext fun a => by fin_cases a <;> rfl

/-- The image an entry of the [2048, 128] result array belongs to: its row-major position over the channel count. -/
def imageOf (j : S2048x128.Idx) : Fin 128 :=
  ⟨((j 0).val * 128 + (j 1).val) / 2048, by
    have h0 : (j 0).val < 2048 := (j 0).isLt
    have h1 : (j 1).val < 128 := (j 1).isLt
    omega⟩

/-- Its channel: the position modulo the channel count. -/
def chanOf (j : S2048x128.Idx) : Fin 2048 :=
  ⟨((j 0).val * 128 + (j 1).val) % 2048, Nat.mod_lt _ (by decide)⟩

/-- The [2048, 128] result array as one function of the argument: entry j is the pooled value of its image and channel. -/
def pooledRows (x : S128x2048x7x7.Idx → EReal) : S2048x128.Idx → EReal :=
  fun j => Cert.Spec.poolAt x (imageOf j) (chanOf j)

/-- What point t writes back is its block of `pooledRows` of the argument. -/
theorem flushed_eq (c : Dev nD) (t : Fin cfg0.N) :
    (dats m 0 c).flushed 1 t
      = ((cfg0.win 1).blk t).view.read (Elt Ideal) (pooledRows (m ((c : Thread nD τ).loc main_arg0))) := by
  show (cfg0.win 1).cut (grid0.coords t) ((dats m 0 c).after 1 t) = _
  rw [after0_1]
  unfold out0_1
  rw [View.canon_unit_zero hz2]
  simp only [View.ld_unit_zero (S := S7x7x16x2048) hz4]
  obtain ⟨-, -, -, -, e0, e1⟩ := idx_facts t
  have hN : cfg0.N = 8 := N_0
  have ht : t.val < 8 := hN ▸ t.isLt
  funext y
  obtain ⟨r, l, rfl⟩ : ∃ (r : Fin 256) (l : Fin 128), y = ix2 r l := ⟨y 0, y 1, eq_ix2 y⟩
  have hr := r.isLt
  have hl := l.isLt
  show k0_pay1 (F := Ideal) (iblk m c 0 t) (ix2 r l)
    = pooledRows (m ((c : Thread nD τ).loc main_arg0)) (((cfg0.win 1).blk t).view.emb (ix2 r l))
  -- the block's row r is the array's row 256 t + r
  have j0 : ((((cfg0.win 1).blk t).view.emb (ix2 r l) : S2048x128.Idx) 0 : Nat) = 256 * t.val + r.val := by
    show win0_1.index t (0 : Fin 2) * 256 + 1 * r.val = _
    rw [e0]; omega
  have j1 : ((((cfg0.win 1).blk t).view.emb (ix2 r l) : S2048x128.Idx) 1 : Nat) = l.val := by
    show win0_1.index t (1 : Fin 2) * 128 + 1 * l.val = _
    rw [e1]; omega
  generalize (((cfg0.win 1).blk t).view.emb (ix2 r l) : S2048x128.Idx) = j at j0 j1
  rw [pay_apply (iblk m c 0 t) ⟨(r.val * 128 + l.val) / 2048, by omega⟩ ⟨(r.val * 128 + l.val) % 2048, Nat.mod_lt _ (by decide)⟩ r l
    (by show r.val * 128 + l.val = (r.val * 128 + l.val) / 2048 * 2048 + (r.val * 128 + l.val) % 2048; omega)]
  unfold pooledRows Cert.Spec.poolAt
  refine congrArg₂ (· * ·) ?_ rfl
  refine Finset.sum_congr rfl fun h _ => Finset.sum_congr rfl fun w _ => ?_
  have hc : chanOf j = ⟨(r.val * 128 + l.val) % 2048, Nat.mod_lt _ (by decide)⟩ := by
    apply Fin.ext
    show ((j 0).val * 128 + (j 1).val) % 2048 = (r.val * 128 + l.val) % 2048
    rw [j0, j1]; omega
  rw [hc]
  refine iblk_apply m c t h w _ _ (imageOf j) ?_
  show ((j 0).val * 128 + (j 1).val) / 2048 = 16 * t.val + (r.val * 128 + l.val) / 2048
  rw [j0, j1]; omega

/-- Every row of the result array is in the block of the point its row number over 256 names. -/
theorem covered (i : S2048x128.Idx) :
    ∃ t : Fin cfg0.N, (cfg0.win 1).flush t = true ∧ i ∈ ((cfg0.win 1).blk t).view.set := by
  have hN : cfg0.N = 8 := N_0
  have h0 : (i 0).val < 2048 := (i 0).isLt
  have h1 : (i 1).val < 128 := (i 1).isLt
  obtain ⟨t, ht⟩ : ∃ t : Fin cfg0.N, t.val = (i 0).val / 256 := ⟨⟨(i 0).val / 256, by rw [hN]; omega⟩, rfl⟩
  obtain ⟨-, -, -, -, e0, e1⟩ := idx_facts t
  refine ⟨t, flush0_1 t, ?_⟩
  show i ∈ ((View.whole main_call0_v1).slice (win0_1.rect t)).set
  rw [View.set_slice_whole, Rect.mem_set_unit]
  intro a
  match a with
  | ⟨0, _⟩ =>
    show win0_1.index t (0 : Fin 2) * 256 ≤ (i 0).val ∧ (i 0).val < win0_1.index t (0 : Fin 2) * 256 + 256
    rw [e0]; omega
  | ⟨1, _⟩ =>
    show win0_1.index t (1 : Fin 2) * 128 ≤ (i 1).val ∧ (i 1).val < win0_1.index t (1 : Fin 2) * 128 + 128
    rw [e1]; omega

/-- So after the run the result array of the region holds `pooledRows` of the argument. -/
theorem final (c : Dev nD) :
    (dats m 0 c).arrAt 1 cfg0.N = pooledRows (m ((c : Thread nD τ).loc main_arg0)) :=
  (dats m 0 c).arrAt_eq_of_cover 1 (pooledRows (m ((c : Thread nD τ).loc main_arg0))) (fun t _ => flushed_eq m c t) covered

/-! ## The host's reshape, and the run -/

/-- The reshape to [128, 2048, 1, 1] of `pooledRows` is the pooled array. -/
theorem reshape_pooledRows (x : S128x2048x7x7.Idx → EReal) (hc : S2048x128.ShapeCasts S128x2048x1x1) :
    shapeCast S128x2048x1x1 (pooledRows x) hc = Cert.Spec.pool x := by
  funext i
  have h0 : (i 0).val < 128 := (i 0).isLt
  have h1 : (i 1).val < 2048 := (i 1).isLt
  have h2 : (i 2).val < 1 := (i 2).isLt
  have h3 : (i 3).val < 1 := (i 3).isLt
  refine (shapeCast_apply _ hc i (ix2 (⟨((i 0).val * 2048 + (i 1).val) / 128, by omega⟩ : Fin 2048) (⟨((i 0).val * 2048 + (i 1).val) % 128, Nat.mod_lt _ (by decide)⟩ : Fin 128)) ?_).trans ?_
  · rw [Shape.rowMajor_val_two, Shape.rowMajor_val_four]
    show ((i 0).val * 2048 + (i 1).val) / 128 * 128 + ((i 0).val * 2048 + (i 1).val) % 128 = (((i 0).val * 2048 + (i 1).val) * 1 + (i 2).val) * 1 + (i 3).val
    omega
  · unfold pooledRows Cert.Spec.pool
    congr 1
    · apply Fin.ext
      show (((i 0).val * 2048 + (i 1).val) / 128 * 128 + ((i 0).val * 2048 + (i 1).val) % 128) / 2048 = (i 0).val
      omega
    · apply Fin.ext
      show (((i 0).val * 2048 + (i 1).val) / 128 * 128 + ((i 0).val * 2048 + (i 1).val) % 128) % 2048 = (i 1).val
      omega

/-- The result buffer after the host's reshape of the region's result array. -/
theorem tail_main_v0 (c : Dev nD) :
    Pipeline.afterTail₀ cfgs (dats m) 0 (V0 m) [hostOps1] c main_v0 = Cert.Spec.pool (m ((c : Thread nD τ).loc main_arg0)) := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v1)
      = pooledRows (m ((c : Thread nD τ).loc main_arg0)) :=
    (Pipeline.withArrays_arr spec0 launch0.win.arr_inj c _ _ 1).trans (final m c)
  show shapeCast S128x2048x1x1 (Pipeline.withArrays (cfgs 0).spec c (V0 m c) (fun w => (dats m 0 c).arrAt w (cfgs 0).N) (Proc.devRef .tc main_call0_v1)) Facts₀.shapeCasts_S2048x128_S128x2048x1x1 = _
  rw [hw]
  exact reshape_pooledRows _ _

/-- The run, read: the result array ends at the pooled argument, the argument unchanged. -/
theorem run : θ_run defs (onTc (τ := τ) (main (F := Ideal))) ⟨m, fun _ => 0, ρ⟩ fun r => ∀ c : Dev nD,
      r.2.mem ((c.tc : Thread nD τ).loc main_v0) = Cert.Spec.pool (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v0 (Pipeline.mem_restRefs_of main_v0 (by decide) (by decide))).trans (tail_main_v0 m c),
       ((h c).2 main_arg0 (Pipeline.mem_restRefs_of main_arg0 (by decide) (by decide))).trans (W_main_arg0 m (dats m) c)⟩)
    (run_main m ρ)

end Cert.KernelIdeal.Hand

end
-- ==== Proof.RefPayload.lean ====
/-
  The row-sum body of the reference's pooling call, read at one row: the block X : [12288, 49] goes to the column
  r ↦ (Σ_k X (r, k)) · s.  So a row of the result depends on the same row of the block only.
-/
import proofs.«131960_g2000505477142475_pallasbulk_808_10_alg».proof.Proof.Gen.ReferenceIdeal.Skeleton
import proofs.«131960_g2000505477142475_pallasbulk_808_10_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.Hand

open Cert.ReferenceIdeal Cert.ReferenceIdeal.Gen

/-- The lane sum over the 49 columns, at row `r`. -/
theorem rowsum_apply (X : FVec Ideal S12288x49 .f32) (h : S12288x49.Reduces [1] S12288) (hφ : FKind.Formats .f32)
    (hacc : (0x00000000#32 : BitVec 32) = 0x00000000#32) (r : Fin 12288) :
    multiReduction .add [1] S12288 X 0x00000000#32 h hφ hacc (ix1 r) = ∑ k : Fin 49, X (ix2 r k) := by
  refine (Ideal.multiReduction_add_single X 0x00000000#32 h hφ hacc (ix1 r)).trans ?_
  refine Finset.sum_congr rfl fun k _ => congrArg X ?_
  funext a
  apply Fin.ext
  match a with
  | ⟨0, _⟩ => rfl
  | ⟨1, _⟩ => rfl

/-- The body's stored value at row `r`: the row's sum, scaled. -/
theorem pay_apply (X : Vec Ideal S12288x49 .f32) (r : Fin 12288) :
    k0_pay1 (F := Ideal) X (ix2 r (0 : Fin 1)) = (∑ k : Fin 49, X (ix2 r k)) * Cert.Spec.scale := by
  unfold k0_pay1
  show (shapeCast S12288x1 _ shapeCasts_S12288_S12288x1 (ix2 r (0 : Fin 1)) : EReal) * Ideal.ofBits .f32 0x3CA72F05#32 = _
  rw [shapeCast_apply _ shapeCasts_S12288_S12288x1 (ix2 r (0 : Fin 1)) (ix1 r) (by
      rw [Shape.rowMajor_val_one, Shape.rowMajor_val_two]; show r.val = r.val * 1 + 0; omega),
    shapeCast_self, rowsum_apply]
  rfl

end Cert.ReferenceIdeal.Hand

end
-- ==== Proof.RefFrame.lean ====
/-
  The reference's pooling call, run: a grid of 22 points over the rows of x2 : [262144, 49] in blocks of 12288 rows, the last
  block overhanging the array by 8192 rows.  A fetch of that block fills the staging buffer's first 4096 rows with the
  array's last rows and leaves the others at contents nothing names; the body sums every row of the buffer, those too, and
  the write-back writes only the rows inside the array.  Since a row of the body's result depends on the same row of its
  input only, the rows that are written back do not depend on the unnamed ones: that is the body's obligation here.
-/
import proofs.«131960_g2000505477142475_pallasbulk_808_10_alg».proof.Proof.Gen.ReferenceIdeal.Frame
import proofs.«131960_g2000505477142475_pallasbulk_808_10_alg».proof.Proof.RefPayload
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body -/

abbrev r0_0 : Rect S12288x49 := Rect.unit (s := S12288x49) ![0, 0] S12288x49.size inb_S12288x49_S12288x49_0_0
abbrev r0_1 : Rect S12288x1 := Rect.unit (s := S12288x1) ![0, 0] S12288x1.size inb_S12288x1_S12288x1_0_0

theorem hz : (![0, 0] : Fin 2 → Nat) = fun _ => 0 := funext fun a => by fin_cases a <;> rfl

/-- What the result's staging buffer holds after the body, from what the input's holds: its one whole store. -/
def out1 (x0 : Vec Ideal S12288x49 .f32) : Vec Ideal S12288x1 .f32 :=
  View.canon [⟨r0_1, k0_pay1 (View.ld x0 r0_0)⟩]

theorem cover1 (p0 : Vec Ideal S12288x1 .f32) (y : S12288x1.Idx) :
    ∃ pc ∈ ([⟨r0_1, p0⟩] : List (View.Piece (Elt Ideal) S12288x1 .f32)), y ∈ pc.1.set :=
  View.cover_of_tiled [⟨r0_1, p0⟩] S12288x1.size (by rfl) y

/-- The store is whole and the load is whole: the buffer ends at the body's value of the input buffer's contents. -/
theorem out1_eq (x0 : Vec Ideal S12288x49 .f32) : out1 x0 = k0_pay1 (F := Ideal) x0 := by
  unfold out1
  rw [View.canon_unit_zero hz]
  simp only [View.ld_unit_zero (S := S12288x49) hz]

/-- Row `r` of what the body leaves: the sum of row `r` of what it found, scaled. -/
theorem out1_apply (x0 : Vec Ideal S12288x49 .f32) (r : Fin 12288) :
    out1 x0 (ix2 r (0 : Fin 1)) = (∑ k : Fin 49, x0 (ix2 r k)) * Cert.Spec.scale := by
  rw [out1_eq]; exact pay_apply x0 r

set_option maxHeartbeats 1000000 in
/-- The body on whole staging memrefs: the input's contents stay, the result's end at `out1` of them. -/
theorem sound_kernel (c : Dev nD) (E : Set ℕ) (i : grid0.Coords) (arg1 : Memref sig .tc .vmem S12288x49 .f32) (harg1 : arg1.IsWhole) (arg2 : Memref sig .tc .vmem S12288x1 .f32) (harg2 : arg2.IsWhole)
    (x0 : Vec Ideal S12288x49 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := Ideal)) Variants.none c none) E (cc0__gap_kernel_single i arg1 harg1 arg2 harg2) K := by
  simp only [cc0__gap_kernel_single_eq_skeleton]; unfold cc0__gap_kernel_single_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The proof data -/

/-- The input block at point `t` filled out to the whole staging buffer: the array's rows where the fetch lands them,
    zero on the rows past the array's end (which nothing reads back). -/
def xblk (c : Dev nD) (t : Fin cfg0.N) : Vec Ideal S12288x49 .f32 :=
  win0_0.fill (grid0.coords t) (fun _ => (0 : EReal)) (iblk m c 0 t)

def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => out1 (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk m c t := by dsimp only [dats]
theorem after0_1 (c : Dev nD) (t : Fin cfg0.N) : (dats m 0 c).after 1 t = out1 (xblk m c t) := by dsimp only [dats]

/-- The result's window is never fetched. -/
theorem fetch0_1 : ∀ t : Fin cfg0.N, (cfg0.win 1).fetch t = false :=
  (by decide +kernel : ∀ t : Fin grid0.N, win0_1.fetch t = false)

/-- What the body finds in the input's buffer: the block where the fetch landed it, `d` on the other rows. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- What it finds in the result's buffer: anything. -/
theorem before0_1 (c : Dev nD) (t : Fin cfg0.N) (d) : (dats m 0 c).before 1 t d = d := by
  refine (dats m 0 c).before_out_reset 1 rfl t ?_ d
  by_cases h : t.val = 0
  · exact .inl h
  · exact .inr ⟨h, flush0_1 _⟩

/-! ## The body obligation -/

/-- Rows inside the array of the body's result depend on rows inside the array of its input only (the two windows are
    cut alike: on the row axis, at the array's end). -/
theorem cut_out1_congr (t : Fin cfg0.N) (X Y : Vec Ideal S12288x49 .f32)
    (h : win0_0.cut (grid0.coords t) X = win0_0.cut (grid0.coords t) Y) :
    win0_1.cut (grid0.coords t) (out1 X) = win0_1.cut (grid0.coords t) (out1 Y) := by
  funext j
  have hj0 : (j 0).val < win0_1.xsize (grid0.coords t) 0 := (j 0).isLt
  have hj1 : (j 1).val < win0_1.xsize (grid0.coords t) 1 := (j 1).isLt
  have hle0 : win0_1.xsize (grid0.coords t) 0 ≤ 12288 := win0_1.xsize_le (grid0.coords t) 0
  have hle1 : win0_1.xsize (grid0.coords t) 1 ≤ 1 := win0_1.xsize_le (grid0.coords t) 1
  have hx0 : win0_0.xsize (grid0.coords t) 0 = win0_1.xsize (grid0.coords t) 0 := rfl
  have hx1 : win0_0.xsize (grid0.coords t) 1 = 49 := rfl
  have e : win0_1.xinj (grid0.coords t) j = ix2 (⟨(j 0).val, by omega⟩ : Fin 12288) (0 : Fin 1) := by
    funext a; apply Fin.ext
    match a with
    | ⟨0, _⟩ => rfl
    | ⟨1, _⟩ => show (j 1).val = 0; omega
  show out1 X (win0_1.xinj (grid0.coords t) j) = out1 Y (win0_1.xinj (grid0.coords t) j)
  rw [e, out1_apply, out1_apply]
  congr 1
  refine Finset.sum_congr rfl fun k _ => ?_
  have hk : k.val < 49 := k.isLt
  let j' : (win0_0.xblock (grid0.coords t)).Idx := fun a => match a with
    | ⟨0, _⟩ => ⟨(j 0).val, by show (j 0).val < win0_0.xsize (grid0.coords t) 0; omega⟩
    | ⟨1, _⟩ => ⟨k.val, by show k.val < win0_0.xsize (grid0.coords t) 1; omega⟩
  have hj' := congrFun h j'
  have e' : win0_0.xinj (grid0.coords t) j' = ix2 (⟨(j 0).val, by omega⟩ : Fin 12288) k := by
    funext a; apply Fin.ext
    match a with
    | ⟨0, _⟩ => rfl
    | ⟨1, _⟩ => rfl
  show X (ix2 _ k) = Y (ix2 _ k)
  rw [← e']
  exact hj'

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rw [before0_0 m c t d0, before0_1 m c t d1]
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xblk m c t) = iblk m c 0 t := win0_0.cut_fill _ _ _
  have hcut : win0_0.cut (grid0.coords t) (win0_0.fill (grid0.coords t) d0 (iblk m c 0 t)) = win0_0.cut (grid0.coords t) (xblk m c t) := by
    rw [hx]; exact win0_0.cut_fill _ _ _
  isplitl [H0]
  · iexists d0
    rw [hx]; iexact H0
  · iexists out1 (win0_0.fill (grid0.coords t) d0 (iblk m c 0 t))
    rw [win0_1.fill_congr_cut (grid0.coords t) (cut_out1_congr t _ _ hcut)]
    iexact H1

theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run, read at the argument array. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.ReferenceIdeal.Hand

end
-- ==== Proof.RefValue.lean ====
/-
  What the reference program leaves in its result array, over the extended reals.

  The program reshapes x : [128, 2048, 7, 7] to x2 : [262144, 49] (row n·2048 + c, column 7h + w), runs one call over
  22 blocks of 12288 rows whose body sends a block to the column of its scaled row sums, and reshapes the resulting
  column [262144, 1] to [128, 2048, 1, 1].  Block t holds rows 12288·t … of x2; the last block overhangs the array and
  its transfers move only the 4096 rows inside it.  So what point t writes back is block t of ONE column
  R ↦ (Σ_k x2 (R, k)) · s, the 22 blocks' rows inside the array are all its rows, and entry (n, c, 0, 0) of the result
  is (Σ_h Σ_w x (n, c, h, w)) · s.
-/
import proofs.«131960_g2000505477142475_pallasbulk_808_10_alg».proof.Proof.RefFrame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

/-! ## The array the region finds: the argument, reshaped -/

/-- The array under window 0 when the region is entered, at its literal type. -/
abbrev x2 (c : Dev nD) : Vec Ideal S262144x49 .f32 := V m c main_call0_v0

/-- It is the argument reshaped to [262144, 49]: the one host operation before the region. -/
theorem x2_eq (c : Dev nD) :
    x2 m c = shapeCast S262144x49 (m ((c.tc : Thread nD τ).loc main_arg0)) shapeCasts_S128x2048x7x7_S262144x49 := by
  show StableHlo.after hostOps0 (fun b => m (c, b)) (Proc.devRef .tc main_call0_v0) = _
  after_results
  rfl

/-- Row n·2048 + c, column 7h + w of the reshaped array is entry (n, c, h, w) of the argument: the two indices have one
    row-major position. -/
theorem x2_apply (c : Dev nD) (n : Fin 128) (ch : Fin 2048) (h w : Fin 7) (R : Fin 262144) (k : Fin 49)
    (hR : R.val = n.val * 2048 + ch.val) (hk : k.val = 7 * h.val + w.val) :
    x2 m c (ix2 R k) = (m ((c.tc : Thread nD τ).loc main_arg0) : S128x2048x7x7.Idx → EReal) (ix4 n ch h w) := by
  rw [x2_eq]
  refine shapeCast_apply _ shapeCasts_S128x2048x7x7_S262144x49 (ix2 R k) (ix4 n ch h w) ?_
  rw [Shape.rowMajor_val_four, Shape.rowMajor_val_two]
  show ((n.val * 2048 + ch.val) * 7 + h.val) * 7 + w.val = R.val * 49 + k.val
  omega

/-! ## The grid: block t holds rows 12288·t …, cut to 4096 rows at the last point -/

/-- The index maps and the cut sizes, decided over the 22 points: both windows' blocks sit at block row t, block column
    0; on the row axis a transfer moves 12288 rows but at the last point, where it moves the 4096 inside the array. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_1.xsize (grid0.coords t) (0 : Fin 2) = (if t.val < 21 then 12288 else 4096)
    ∧ win0_1.xsize (grid0.coords t) (1 : Fin 2) = 1 :=
  (by decide +kernel : ∀ t : Fin grid0.N, _)

/-- The input block at point t, entry (r, k): row 12288·t + r, column k of the reshaped array. -/
theorem iblk_apply (c : Dev nD) (t : Fin cfg0.N) (j : (win0_0.xblock (grid0.coords t)).Idx) (R : Fin 262144) (k : Fin 49)
    (hR : R.val = 12288 * t.val + (j 0).val) (hk : k.val = (j 1).val) :
    iblk m c 0 t j = x2 m c (ix2 R k) := by
  obtain ⟨e0, e1, -⟩ := grid_facts t
  unfold iblk
  rw [View.read_apply]
  show x2 m c (((cfg0.win 0).blk t).view.emb j) = _
  congr 1
  funext a
  apply Fin.ext
  match a with
  | ⟨0, _⟩ => show win0_0.index t (0 : Fin 2) * 12288 + 1 * (j 0).val = R.val; rw [e0, hR]; omega
  | ⟨1, _⟩ => show win0_0.index t (1 : Fin 2) * 49 + 1 * (j 1).val = k.val; rw [e1, hk]; omega

/-- The staging buffer's contents at point t, on a row r the fetch moved: row 12288·t + r of the reshaped array. -/
theorem xblk_apply (c : Dev nD) (t : Fin cfg0.N) (r : Fin 12288) (k : Fin 49) (R : Fin 262144)
    (hr : r.val < win0_0.xsize (grid0.coords t) (0 : Fin 2)) (hR : R.val = 12288 * t.val + r.val) :
    xblk m c t (ix2 r k) = x2 m c (ix2 R k) := by
  have hk : k.val < 49 := k.isLt
  have hx1 : win0_0.xsize (grid0.coords t) (1 : Fin 2) = 49 := rfl
  let j : (win0_0.xblock (grid0.coords t)).Idx := fun a => match a with
    | ⟨0, _⟩ => ⟨r.val, hr⟩
    | ⟨1, _⟩ => ⟨k.val, by show k.val < win0_0.xsize (grid0.coords t) (1 : Fin 2); omega⟩
  have e : ix2 r k = win0_0.xinj (grid0.coords t) j := by
    funext a; apply Fin.ext
    match a with
    | ⟨0, _⟩ => rfl
    | ⟨1, _⟩ => rfl
  unfold xblk
  rw [e, win0_0.fill_xinj]
  exact iblk_apply m c t j R k hR rfl

/-! ## The result array as one function of the reshaped argument -/

/-- Row R of the pooled column: the sum of row R of the reshaped array, scaled. -/
def rowVal (c : Dev nD) (R : Fin 262144) : EReal :=
  (∑ k : Fin 49, x2 m c (ix2 R k)) * Cert.Spec.scale

/-- The pooled column [262144, 1]. -/
def rowPool (c : Dev nD) : Vec Ideal S262144x1 .f32 := fun i => rowVal m c ⟨(i 0).val, idx2_lt0 i⟩

/-- What point t writes back is block t of the pooled column. -/
theorem flushed_eq (c : Dev nD) (t : Fin cfg0.N) :
    (dats m 0 c).flushed 1 t = ((cfg0.win 1).blk t).view.read (Elt Ideal) (rowPool m c) := by
  obtain ⟨-, -, e2, e3, e4, e5⟩ := grid_facts t
  show (cfg0.win 1).cut (grid0.coords t) ((dats m 0 c).after 1 t) = _
  rw [after0_1]
  funext j
  rw [View.read_apply]
  have hj0 : (j 0).val < win0_1.xsize (grid0.coords t) (0 : Fin 2) := (j 0).isLt
  have hj1 : (j 1).val < win0_1.xsize (grid0.coords t) (1 : Fin 2) := (j 1).isLt
  have hle0 : win0_1.xsize (grid0.coords t) (0 : Fin 2) ≤ 12288 := win0_1.xsize_le (grid0.coords t) 0
  have hx0 : win0_0.xsize (grid0.coords t) (0 : Fin 2) = win0_1.xsize (grid0.coords t) (0 : Fin 2) := rfl
  have ht : t.val < 22 := lt_of_lt_of_eq t.isLt N_0
  have hb : 12288 * t.val + (j 0).val < 262144 := by
    rw [e4] at hj0; split at hj0 <;> omega
  have e : win0_1.xinj (grid0.coords t) j = ix2 (⟨(j 0).val, by omega⟩ : Fin 12288) (0 : Fin 1) := by
    funext a; apply Fin.ext
    match a with
    | ⟨0, _⟩ => rfl
    | ⟨1, _⟩ => show (j 1).val = 0; omega
  show out1 (xblk m c t) (win0_1.xinj (grid0.coords t) j) = rowPool m c (((cfg0.win 1).blk t).view.emb j)
  rw [e, out1_apply]
  have eR : rowPool m c (((cfg0.win 1).blk t).view.emb j) = rowVal m c ⟨12288 * t.val + (j 0).val, hb⟩ := by
    unfold rowPool
    congr 1
    apply Fin.ext
    show win0_1.index t (0 : Fin 2) * 12288 + 1 * (j 0).val = 12288 * t.val + (j 0).val
    rw [e2]; omega
  rw [eR]
  unfold rowVal
  congr 1
  refine Finset.sum_congr rfl fun k _ => ?_
  exact xblk_apply m c t _ k _ (by rw [hx0]; exact hj0) rfl

/-! ## The blocks cover the array -/

/-- A row of the result array is in point t's block iff it is among the block's rows inside the array. -/
theorem mem_blk (t : Fin cfg0.N) (i : S262144x1.Idx) :
    i ∈ ((cfg0.win 1).blk t).view.set ↔ ∀ a : Fin 2, win0_1.index t a * S12288x1.size a ≤ (i a).val
      ∧ (i a).val < win0_1.index t a * S12288x1.size a + win0_1.xsize (grid0.coords t) a := by
  show i ∈ ((View.whole main_call0_v1).slice (win0_1.rect t)).set ↔ _
  rw [View.set_slice_whole, Rect.mem_set_unit]
  exact Iff.rfl

/-- Row i is in the block of point i / 12288: the first 21 blocks hold 12288 rows each, the last the remaining 4096. -/
theorem covered (i : S262144x1.Idx) :
    ∃ t : Fin cfg0.N, (cfg0.win 1).flush t = true ∧ i ∈ ((cfg0.win 1).blk t).view.set := by
  have hi0 : (i 0).val < 262144 := idx2_lt0 i
  have hi1 : (i 1).val < 1 := idx2_lt1 i
  let t : Fin cfg0.N := ⟨(i 0).val / 12288, lt_of_lt_of_eq (by omega : (i 0).val / 12288 < 22) N_0.symm⟩
  have htv : t.val = (i 0).val / 12288 := rfl
  obtain ⟨-, -, e2, e3, e4, e5⟩ := grid_facts t
  refine ⟨t, flush0_1 t, ?_⟩
  rw [mem_blk]
  intro a
  match a with
  | ⟨0, _⟩ =>
    show win0_1.index t (0 : Fin 2) * 12288 ≤ (i 0).val
      ∧ (i 0).val < win0_1.index t (0 : Fin 2) * 12288 + win0_1.xsize (grid0.coords t) (0 : Fin 2)
    rw [e2, e4, htv]
    split <;> omega
  | ⟨1, _⟩ =>
    show win0_1.index t (1 : Fin 2) * 1 ≤ (i 1).val
      ∧ (i 1).val < win0_1.index t (1 : Fin 2) * 1 + win0_1.xsize (grid0.coords t) (1 : Fin 2)
    rw [e3, e5]
    omega

/-- So the result array of the call ends holding the pooled column. -/
theorem final (c : Dev nD) : (dats m 0 c).arrAt 1 cfg0.N = rowPool m c :=
  (dats m 0 c).arrAt_eq_of_cover 1 (rowPool m c) (fun t _ => flushed_eq m c t) covered

/-! ## The host reshape after the call, and the specification -/

/-- The program's result: the pooled column reshaped to [128, 2048, 1, 1], the one host operation after the region. -/
theorem tail_eq (c : Dev nD) :
    Pipeline.afterTail₀ cfgs (dats m) 0 (V0 m) [hostOps1] c main_v0
      = shapeCast S128x2048x1x1 (rowPool m c) shapeCasts_S262144x1_S128x2048x1x1 := by
  unfold Pipeline.afterTail₀
  show StableHlo.after hostOps1 _ (Proc.devRef .tc main_v0) = _
  after_results
  rw [(Pipeline.withArrays_arr spec0 launch0.win.arr_inj c _ _ 1).trans (final m c)]
  rfl

/-- Entry (n, c, 0, 0) of the reshaped column is row n·2048 + c of it: the pooled value of channel c of image n. -/
theorem pool_eq (c : Dev nD) :
    shapeCast S128x2048x1x1 (rowPool m c) shapeCasts_S262144x1_S128x2048x1x1
      = Cert.Spec.pool (m ((c.tc : Thread nD τ).loc main_arg0)) := by
  funext i
  obtain ⟨n, ch, a, b, rfl⟩ : ∃ (n : Fin 128) (ch : Fin 2048) (a b : Fin 1), i = ix4 n ch a b :=
    ⟨i 0, i 1, i 2, i 3, eq_ix4 i⟩
  have hn : n.val < 128 := n.isLt
  have hch : ch.val < 2048 := ch.isLt
  have ha : a.val < 1 := a.isLt
  have hb : b.val < 1 := b.isLt
  have hR : n.val * 2048 + ch.val < 262144 := by omega
  rw [shapeCast_apply (rowPool m c) shapeCasts_S262144x1_S128x2048x1x1 (ix4 n ch a b)
    (ix2 (⟨n.val * 2048 + ch.val, hR⟩ : Fin 262144) (0 : Fin 1)) (by
      rw [Shape.rowMajor_val_two, Shape.rowMajor_val_four]
      show (n.val * 2048 + ch.val) * 1 + 0 = ((n.val * 2048 + ch.val) * 1 + a.val) * 1 + b.val
      omega)]
  show rowVal m c ⟨n.val * 2048 + ch.val, _⟩ = Cert.Spec.poolAt (m ((c.tc : Thread nD τ).loc main_arg0)) n ch
  unfold rowVal Cert.Spec.poolAt
  congr 1
  rw [Cert.Spec.sum_fin49]
  refine Finset.sum_congr rfl fun h _ => Finset.sum_congr rfl fun w _ => ?_
  exact x2_apply m c n ch h w _ _ rfl rfl

/-! ## The run, read -/

/-- The run, read: the result array ends at the pooled argument, the argument unchanged. -/
theorem run : θ_run defs (onTc (τ := τ) (main (F := Ideal))) ⟨m, fun _ => 0, ρ⟩ fun r => ∀ c : Dev nD,
      r.2.mem ((c.tc : Thread nD τ).loc main_v0) = Cert.Spec.pool (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v0 (Pipeline.mem_restRefs_of main_v0 (by decide) (by decide))).trans
          ((tail_eq m c).trans (pool_eq m c)),
        ((h c).2 main_arg0 (Pipeline.mem_restRefs_of main_arg0 (by decide) (by decide))).trans
          (W_main_arg0 m (dats m) c)⟩)
    (run_main m ρ)

end Cert.ReferenceIdeal.Hand

end
-- ==== Proof.lean ====
/-
  Global average pooling, two ways.  The kernel transposes x : [128, 2048, 7, 7] to [7, 7, 128, 2048], sums the 49 leading
  planes of each block of 16 images elementwise, scales, and lays the [16, 2048] result out as rows of 128 lanes; the
  reference reshapes x to [262144, 49], sums each row's 49 lanes, scales, and reshapes the column back.  Over the
  extended reals both results are out (n, c) = (Σ_h Σ_w x (n, c, h, w)) · s with the same factor s: a finite sum does not
  depend on the order or the grouping of its terms, so the two agree at every input, finite or not.
  The kernel's two frames are the generated class-A runs; the reference's frame is its own run with the last, overhanging
  block of rows cut at the array's end (Proof/RefFrame.lean); the two value readings are Proof/KernelValue.lean and
  Proof/RefValue.lean over the common specification Proof/Spec.lean.  No rewrite was applied by the idealization, so
  `preserves` is trivial.
-/
import proofs.«131960_g2000505477142475_pallasbulk_808_10_alg».proof.Defs
import proofs.«131960_g2000505477142475_pallasbulk_808_10_alg».proof.Proof.Gen.Kernel
import proofs.«131960_g2000505477142475_pallasbulk_808_10_alg».proof.Proof.Gen.Kernel.Frame
import proofs.«131960_g2000505477142475_pallasbulk_808_10_alg».proof.Proof.Gen.KernelIdeal
import proofs.«131960_g2000505477142475_pallasbulk_808_10_alg».proof.Proof.Gen.KernelIdeal.Frame
import proofs.«131960_g2000505477142475_pallasbulk_808_10_alg».proof.Proof.Gen.ReferenceIdeal
import proofs.«131960_g2000505477142475_pallasbulk_808_10_alg».proof.Proof.Gen.Pre_finite_inputs
import proofs.«131960_g2000505477142475_pallasbulk_808_10_alg».proof.Proof.KernelValue
import proofs.«131960_g2000505477142475_pallasbulk_808_10_alg».proof.Proof.RefFrame
import proofs.«131960_g2000505477142475_pallasbulk_808_10_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Hand.frame m ρ

/-- Both runs end with the result array at the pooled argument; the arguments agree, so the results do. -/
theorem algebraic : Cert.algebraic_KernelIdeal_ReferenceIdeal := by
  intro m ρ m' ρ' _ hagree
  refine ⟨fun c => Cert.Spec.pool (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
